-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 90
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x128, .f32⟩
  | .hbm, ⟨53, _⟩ => ⟨S1700000x1, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x128, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x64, .f32⟩
  | .hbm, ⟨72, _⟩ => ⟨S1700000x1, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x64, .f32⟩
  | .hbm, ⟨82, _⟩ => ⟨S1700000x64, .f32⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S1x64, .f32⟩
  | .hbm, ⟨89, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_c_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_12 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S5000x64_S5000x64 : S5000x64.ShapeCasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v63) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 136
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x64, .f32⟩
  | 6 => ⟨S64, .f32⟩
  | 7 => ⟨S1x1600000, .i32⟩
  | 8 => ⟨S1600000, .i32⟩
  | 9 => ⟨S1x1600000, .i32⟩
  | 10 => ⟨S1600000, .i32⟩
  | 11 => ⟨S100000, .i32⟩
  | 12 => ⟨S1700000, .i32⟩
  | 13 => ⟨S1700000, .i32⟩
  | 14 => ⟨S_, .f32⟩
  | 15 => ⟨S100000, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S100000x128, .f32⟩
  | 53 => ⟨S1700000x1, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000x128, .f32⟩
  | 63 => ⟨S1700000x128, .f32⟩
  | 64 => ⟨S1700000x128, .f32⟩
  | 65 => ⟨S_, .f32⟩
  | 66 => ⟨S100000x128, .f32⟩
  | 67 => ⟨S1700000x1, .i32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S100000, .i32⟩
  | 76 => ⟨S1700000, .i32⟩
  | 77 => ⟨S1700000, .i32⟩
  | 78 => ⟨S_, .f32⟩
  | 79 => ⟨S100000, .f32⟩
  | 80 => ⟨S1700000, .f32⟩
  | 81 => ⟨S_, .f32⟩
  | 82 => ⟨S100000, .f32⟩
  | 83 => ⟨S1700000x1, .i32⟩
  | 84 => ⟨S100000, .f32⟩
  | 85 => ⟨S_, .f32⟩
  | 86 => ⟨S100000, .f32⟩
  | 87 => ⟨S100000, .i1⟩
  | 88 => ⟨S_, .f32⟩
  | 89 => ⟨S100000, .f32⟩
  | 90 => ⟨S100000, .f32⟩
  | 91 => ⟨S100000, .f32⟩
  | 92 => ⟨S_, .f32⟩
  | 93 => ⟨S_, .f32⟩
  | 94 => ⟨S100000, .f32⟩
  | 95 => ⟨S100000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000, .f32⟩
  | 105 => ⟨S1700000, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000, .f32⟩
  | 115 => ⟨S1700000, .f32⟩
  | 116 => ⟨S100000x64, .f32⟩
  | 117 => ⟨S1700000x1, .f32⟩
  | 118 => ⟨S_, .i32⟩
  | 119 => ⟨S1700000, .i32⟩
  | 120 => ⟨S1700000, .i1⟩
  | 121 => ⟨S_, .i32⟩
  | 122 => ⟨S1700000, .i32⟩
  | 123 => ⟨S1700000, .i32⟩
  | 124 => ⟨S1700000, .i32⟩
  | 125 => ⟨S1700000x1, .i32⟩
  | 126 => ⟨S1700000x64, .f32⟩
  | 127 => ⟨S1700000x64, .f32⟩
  | _ => ⟨S100000x128, .f32⟩

abbrev hbmTy0_1 (i : Nat) : BufTy := match i % 128 with
  | 0 => ⟨S1700000x64, .f32⟩
  | 1 => ⟨S_, .f32⟩
  | 2 => ⟨S100000x64, .f32⟩
  | 3 => ⟨S1700000x1, .i32⟩
  | 4 => ⟨S100000x64, .f32⟩
  | 5 => ⟨S1x64, .f32⟩
  | 6 => ⟨S100000x64, .f32⟩
  | 7 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call1_cst : Ref sig .tc := ⟨.hbm, 72, rfl⟩
abbrev main_call1_v0 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_v60 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_14 : Ref sig .tc := ⟨.hbm, 92, rfl⟩
abbrev main_call2_v0 : Ref sig .tc := ⟨.hbm, 93, rfl⟩
abbrev main_call2_v1 : Ref sig .tc := ⟨.hbm, 94, rfl⟩
abbrev main_v65 : Ref sig .tc := ⟨.hbm, 95, rfl⟩
abbrev main_c_15 : Ref sig .tc := ⟨.hbm, 96, rfl⟩
abbrev main_v66 : Ref sig .tc := ⟨.hbm, 97, rfl⟩
abbrev main_v67 : Ref sig .tc := ⟨.hbm, 98, rfl⟩
abbrev main_c_16 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_c_17 : Ref sig .tc := ⟨.hbm, 106, rfl⟩
abbrev main_v74 : Ref sig .tc := ⟨.hbm, 107, rfl⟩
abbrev main_v75 : Ref sig .tc := ⟨.hbm, 108, rfl⟩
abbrev main_c_18 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_c_19 : Ref sig .tc := ⟨.hbm, 118, rfl⟩
abbrev main_v84 : Ref sig .tc := ⟨.hbm, 119, rfl⟩
abbrev main_v85 : Ref sig .tc := ⟨.hbm, 120, rfl⟩
abbrev main_c_20 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_21 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Spec.lean ====
/-
  The four dense stages of a two-layer graph convolution, each as ONE function of whole arrays, entry by entry, over the
  extended reals.  Layer one multiplies the node features (100000 x 128) by a 128 x 128 weight matrix; after the
  neighbourhood sums a bias row is added and the result is clamped below at zero; layer two multiplies by a 128 x 64
  matrix and, after the second neighbourhood sums, adds its bias row.  A product's entry (r, q) is the sum over the
  128 shared coordinates k of  x (r, k) * w (k, q);  a bias row has a single row, read at column q for every r.
-/
import Idealize.ShloMosaic.Lib.ValueIdx
import Idealize.ShloMosaic.PureOps.Ideal.Laws

noncomputable section

namespace Gcn

open Idealize.ShloMosaic

abbrev Sx : Shape := ⟨2, ![100000, 128]⟩
abbrev Sw1 : Shape := ⟨2, ![128, 128]⟩
abbrev Sw2 : Shape := ⟨2, ![128, 64]⟩
abbrev So : Shape := ⟨2, ![100000, 64]⟩
abbrev Sb1 : Shape := ⟨2, ![1, 128]⟩
abbrev Sb2 : Shape := ⟨2, ![1, 64]⟩

/-- Entry `(i 0, k)` of an array with 128 columns, for an index `i` of the 128-column result. -/
abbrev lhs1 (i : Sx.Idx) (k : Fin 128) : Sx.Idx := fun a => match a with
  | ⟨0, _⟩ => ⟨(i 0).val, (i 0).isLt⟩
  | ⟨1, _⟩ => ⟨k.val, k.isLt⟩
/-- Entry `(k, i 1)` of the 128 x 128 weights. -/
abbrev rhs1 (i : Sx.Idx) (k : Fin 128) : Sw1.Idx := fun a => match a with
  | ⟨0, _⟩ => ⟨k.val, k.isLt⟩
  | ⟨1, _⟩ => ⟨(i 1).val, (i 1).isLt⟩
/-- Entry `(i 0, k)` of the 128-column hidden features, for an index `i` of the 64-column result. -/
abbrev lhs2 (i : So.Idx) (k : Fin 128) : Sx.Idx := fun a => match a with
  | ⟨0, _⟩ => ⟨(i 0).val, (i 0).isLt⟩
  | ⟨1, _⟩ => ⟨k.val, k.isLt⟩
/-- Entry `(k, i 1)` of the 128 x 64 weights. -/
abbrev rhs2 (i : So.Idx) (k : Fin 128) : Sw2.Idx := fun a => match a with
  | ⟨0, _⟩ => ⟨k.val, k.isLt⟩
  | ⟨1, _⟩ => ⟨(i 1).val, (i 1).isLt⟩
/-- Column `i 1` of the single bias row (128 columns). -/
abbrev brow1 (i : Sx.Idx) : Sb1.Idx := fun a => match a with
  | ⟨0, _⟩ => ⟨0, Nat.one_pos⟩
  | ⟨1, _⟩ => ⟨(i 1).val, (i 1).isLt⟩
/-- Column `i 1` of the single bias row (64 columns). -/
abbrev brow2 (i : So.Idx) : Sb2.Idx := fun a => match a with
  | ⟨0, _⟩ => ⟨0, Nat.one_pos⟩
  | ⟨1, _⟩ => ⟨(i 1).val, (i 1).isLt⟩

/-- The first feature transform: `x · w`, 100000 x 128 by 128 x 128. -/
def mm1 (x : (⟨Sx, .f32⟩ : BufTy).Contents (Elt Ideal)) (w : (⟨Sw1, .f32⟩ : BufTy).Contents (Elt Ideal)) :
    (⟨Sx, .f32⟩ : BufTy).Contents (Elt Ideal) :=
  fun i => ∑ k : Fin 128, x (lhs1 i k) * w (rhs1 i k)

/-- The second feature transform: `h · w`, 100000 x 128 by 128 x 64. -/
def mm2 (h : (⟨Sx, .f32⟩ : BufTy).Contents (Elt Ideal)) (w : (⟨Sw2, .f32⟩ : BufTy).Contents (Elt Ideal)) :
    (⟨So, .f32⟩ : BufTy).Contents (Elt Ideal) :=
  fun i => ∑ k : Fin 128, h (lhs2 i k) * w (rhs2 i k)

/-- The first layer's closing step: the bias row added to every row, then the maximum with zero. -/
def biasRelu (a : (⟨Sx, .f32⟩ : BufTy).Contents (Elt Ideal)) (b : (⟨Sb1, .f32⟩ : BufTy).Contents (Elt Ideal)) :
    (⟨Sx, .f32⟩ : BufTy).Contents (Elt Ideal) :=
  fun i => FloatOps.maximumf (F := Ideal) (φ := .f32) (FloatOps.addf (F := Ideal) (φ := .f32) (a i) (b (brow1 i))) (FloatOps.ofBits (F := Ideal) .f32 0x00000000#32)

/-- The second layer's closing step: the bias row added to every row. -/
def biasAdd (a : (⟨So, .f32⟩ : BufTy).Contents (Elt Ideal)) (b : (⟨Sb2, .f32⟩ : BufTy).Contents (Elt Ideal)) :
    (⟨So, .f32⟩ : BufTy).Contents (Elt Ideal) :=
  fun i => FloatOps.addf (F := Ideal) (φ := .f32) (a i) (b (brow2 i))

end Gcn

end
-- ==== Proof.Region0.lean ====
import proofs.«119702_j14388140442154_1_alg».proof.Proof.Gen.KernelIdeal.Frame
import proofs.«119702_j14388140442154_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat Cfg Window)

/-- The origin of a block, as the constant-zero offset. -/
theorem origin_zero : (![0, 0] : Fin 2 → Nat) = fun _ => 0 := funext fun a => by fin_cases a <;> rfl

/-! ## The product's dimension numbers, axis by axis

The left operand is read at (row of the result, shared coordinate), the right operand at (shared coordinate,
column of the result). -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_shared (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_shared (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- One block of the product: entry (p, q) of the body's result is the sum over the 128 shared coordinates k of
    (row p of the feature block at k) * (the weights at (k, q)); the narrowing of both operands is the identity
    over the extended reals and the accumulator starts at zero. -/
theorem block_product (x0 : Vec Ideal S5000x128 .f32) (x1 : Vec Ideal S128x128 .f32) (p : Fin 5000) (q : Fin 128) :
    k0_pay1 (F := Ideal) x0 x1 (ValueIdx.ix2 p q) = ∑ k : Fin 128, x0 (ValueIdx.ix2 p k) * x1 (ValueIdx.ix2 k q) := by
  unfold k0_pay1
  show FloatOps.matmul dot_S5000x128_S128x128_S5000x128_1_0_0_1_n_n none (truncf .bf16 x0 bitsLt_bf16_f32) (truncf .bf16 x1 bitsLt_bf16_f32)
      (constant (F := Ideal) S5000x128 .f32 0x00000000#32) (ValueIdx.ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ValueIdx.ix2 p q) ((ValueIdx.contrEquiv1 dot_S5000x128_S128x128_S5000x128_1_0_0_1_n_n 128 rfl rfl).symm k) = ValueIdx.ix2 p k := funext fun a => Fin.ext (by
    match a with
    | ⟨0, _⟩ => exact lhs_row _ _
    | ⟨1, _⟩ => exact (lhs_shared _ _).trans hk)
  have er : dot_S5000x128_S128x128_S5000x128_1_0_0_1_n_n.rhsIdx (ValueIdx.ix2 p q) ((ValueIdx.contrEquiv1 dot_S5000x128_S128x128_S5000x128_1_0_0_1_n_n 128 rfl rfl).symm k) = ValueIdx.ix2 k q := funext fun a => Fin.ext (by
    match a with
    | ⟨0, _⟩ => exact (rhs_shared _ _).trans hk
    | ⟨1, _⟩ => exact rhs_col _ _)
  rw [el, er]
  rfl

/-! ## From the twenty row blocks to the array -/

/-- The windows' index maps over the grid: point t's feature block and result block are row block t, in the only
    column block; the weights' window is the whole matrix at every point. -/
theorem index_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Point t's body result, from a feature block x0 and a weight block x1 that are the windows' blocks of arrays A
    and W, is row block t of the whole product of A and W: row p of the block is row 5000 * t + p of the array. -/
theorem block_eq (A : (⟨S100000x128, .f32⟩ : BufTy).Contents (Elt Ideal)) (W : (⟨S128x128, .f32⟩ : BufTy).Contents (Elt Ideal))
    (t : Fin cfg0.N) (x0 : Vec Ideal S5000x128 .f32) (x1 : Vec Ideal S128x128 .f32)
    (h0 : ∀ (p : Fin 5000) (k : Fin 128), x0 (ValueIdx.ix2 p k) = A (((cfg0.win 0).blk t).view.emb (ValueIdx.ix2 p k)))
    (h1 : ∀ (k : Fin 128) (q : Fin 128), x1 (ValueIdx.ix2 k q) = W (((cfg0.win 1).blk t).view.emb (ValueIdx.ix2 k q))) :
    k0_pay1 (F := Ideal) x0 x1 = ((cfg0.win 2).blk t).view.read (Elt Ideal) (Gcn.mm1 A W) := by
  obtain ⟨e0, e1, e2, e3, e4, e5⟩ := index_facts t
  funext j
  obtain ⟨p, q, rfl⟩ : ∃ (p : Fin 5000) (q : Fin 128), j = ValueIdx.ix2 p q := ⟨j 0, j 1, ValueIdx.eq_ix2 j⟩
  refine (block_product x0 x1 p q).trans ?_
  show _ = ∑ k : Fin 128, A (Gcn.lhs1 (((cfg0.win 2).blk t).view.emb (ValueIdx.ix2 p q)) k) * W (Gcn.rhs1 (((cfg0.win 2).blk t).view.emb (ValueIdx.ix2 p q)) k)
  refine Finset.sum_congr rfl fun k _ => ?_
  rw [h0, h1]
  have hl : ((cfg0.win 0).blk t).view.emb (ValueIdx.ix2 p k) = Gcn.lhs1 (((cfg0.win 2).blk t).view.emb (ValueIdx.ix2 p q)) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have hr : ((cfg0.win 1).blk t).view.emb (ValueIdx.ix2 k q) = Gcn.rhs1 (((cfg0.win 2).blk t).view.emb (ValueIdx.ix2 p q)) k := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [hl, hr]

/-- What point t writes back is row block t of the whole-array product of the arrays as the region finds them. -/
theorem flushed_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal) (Gcn.mm1 (V c main_arg0) (V c main_arg3)) := by
  show (cfg0.win 2).cut (grid0.coords t) ((dat0 (F := Ideal) V c).after 2 t) = _
  rw [after0_2]
  unfold out0_2
  rw [View.canon_unit_zero origin_zero]
  simp only [View.ld_unit_zero (S := S5000x128) origin_zero, View.ld_unit_zero (S := S128x128) origin_zero]
  exact block_eq (V c main_arg0) (V c main_arg3) t (iblk0 V c 0 t) (iblk0 V c 1 t) (fun _ _ => rfl) (fun _ _ => rfl)

/-- An index of the array lies in point t's block iff each coordinate lies in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v34).slice (win0_2.rect t)).set ↔ _
  rw [View.set_slice_whole, Rect.mem_set_unit]
  exact Iff.rfl

/-- The twenty row blocks cover all 100000 rows: row r lies in the block of point r / 5000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  have ht : t.val = (i 0).val / 5000 := rfl
  obtain ⟨e0, e1, e2, e3, e4, e5⟩ := index_facts t
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the twenty points the result array is the whole product of the two input arrays as the region found them. -/
theorem array (V : (c : Dev nD) → (b : Ref sig .tc) → Buf (Elt Ideal) ((c : Thread nD τ).loc b)) (c : Dev nD) :
    (dat0 (F := Ideal) V c).arrAt 2 cfg0.N = Gcn.mm1 (V c main_arg0) (V c main_arg3) :=
  (dat0 (F := Ideal) V c).arrAt_eq_of_cover 2 (Gcn.mm1 (V c main_arg0) (V c main_arg3)) (fun t _ => flushed_eq V c t) cover

end Cert.KernelIdeal.Region0

end
-- ==== Proof.Head.lean ====
import proofs.«119702_j14388140442154_1_alg».proof.Proof.Gen.KernelIdeal.Frame
import proofs.«119702_j14388140442154_1_alg».proof.Proof.Gen.ReferenceIdeal.Read
import proofs.«119702_j14388140442154_1_alg».proof.Proof.Spec
import proofs.«119702_j14388140442154_1_alg».proof.Proof.Region0
import Idealize.ShloMosaic.Lib.StableHlo.Run

set_option maxRecDepth 16384

noncomputable section

namespace Cert.KernelIdeal.Head

open Cert.KernelIdeal Cert.KernelIdeal.Gen Idealize.ShloMosaic Idealize.ShloMosaic.TcCoe Idealize.SL.Sem
open Cert.ReferenceIdeal.Read

variable (m : (ℓ : Loc nD τ sig) → Buf (Elt Ideal) ℓ) (ρ : Dev nD → PrngReg)

/-! ## After the first stretch of host operations

The edge sources and targets with the self loops appended, the edge weights with the loops' ones appended, the
test "degree > 0", the inverse square roots of the clamped degrees, and the zero the zero-degree nodes get: each is
the reference's term of the launch arguments (the edge list and the edge weights). -/

theorem w1_v5 (c : Dev nD) : W1 m ρ c (Proc.devRef .tc main_v5) = val_main_v5 (F := Ideal) (m ((c : Thread nD τ).loc main_arg1)) := by
  show StableHlo.after hostOps0 (W0 m ρ c) (Proc.devRef .tc main_v5) = _
  have h1 : W0 m ρ c (Proc.devRef .tc main_arg1) = m ((c : Thread nD τ).loc main_arg1) := rfl
  generalize W0 m ρ c = V at h1 ⊢
  simp only [hostOps0]
  after_results_simp
  repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rw [h1]
  rfl

theorem w1_v6 (c : Dev nD) : W1 m ρ c (Proc.devRef .tc main_v6) = val_main_v6 (F := Ideal) (m ((c : Thread nD τ).loc main_arg1)) := by
  show StableHlo.after hostOps0 (W0 m ρ c) (Proc.devRef .tc main_v6) = _
  have h1 : W0 m ρ c (Proc.devRef .tc main_arg1) = m ((c : Thread nD τ).loc main_arg1) := rfl
  generalize W0 m ρ c = V at h1 ⊢
  simp only [hostOps0]
  after_results_simp
  repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rw [h1]
  rfl

theorem w1_v8 (c : Dev nD) : W1 m ρ c (Proc.devRef .tc main_v8) = val_main_v8 (F := Ideal) (m ((c : Thread nD τ).loc main_arg2)) := by
  show StableHlo.after hostOps0 (W0 m ρ c) (Proc.devRef .tc main_v8) = _
  have h2 : W0 m ρ c (Proc.devRef .tc main_arg2) = m ((c : Thread nD τ).loc main_arg2) := rfl
  generalize W0 m ρ c = V at h2 ⊢
  simp only [hostOps0]
  after_results_simp
  repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rw [h2]
  rfl

theorem w1_v13 (c : Dev nD) : W1 m ρ c (Proc.devRef .tc main_v13) = val_main_v13 (F := Ideal) (m ((c : Thread nD τ).loc main_arg1)) (m ((c : Thread nD τ).loc main_arg2)) := by
  show StableHlo.after hostOps0 (W0 m ρ c) (Proc.devRef .tc main_v13) = _
  have h1 : W0 m ρ c (Proc.devRef .tc main_arg1) = m ((c : Thread nD τ).loc main_arg1) := rfl
  have h2 : W0 m ρ c (Proc.devRef .tc main_arg2) = m ((c : Thread nD τ).loc main_arg2) := rfl
  generalize W0 m ρ c = V at h1 h2 ⊢
  simp only [hostOps0]
  after_results_simp
  repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rw [h1, h2]
  rfl

theorem w1_v16 (c : Dev nD) : W1 m ρ c (Proc.devRef .tc main_v16) = val_main_v16 (F := Ideal) (m ((c : Thread nD τ).loc main_arg1)) (m ((c : Thread nD τ).loc main_arg2)) := by
  show StableHlo.after hostOps0 (W0 m ρ c) (Proc.devRef .tc main_v16) = _
  have h1 : W0 m ρ c (Proc.devRef .tc main_arg1) = m ((c : Thread nD τ).loc main_arg1) := rfl
  have h2 : W0 m ρ c (Proc.devRef .tc main_arg2) = m ((c : Thread nD τ).loc main_arg2) := rfl
  generalize W0 m ρ c = V at h1 h2 ⊢
  simp only [hostOps0]
  after_results_simp
  repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rw [h1, h2]
  rfl

theorem w1_cst_3 (c : Dev nD) : W1 m ρ c (Proc.devRef .tc main_cst_3) = val_main_cst_3 (F := Ideal) := by
  show StableHlo.after hostOps0 (W0 m ρ c) (Proc.devRef .tc main_cst_3) = _
  generalize W0 m ρ c = V
  simp only [hostOps0]
  after_results_simp
  repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rfl

/-! ## After the call that puts zero where the degree is zero

The inverse square roots of the degrees; the edge lists and weights are not written. -/

/-- The module-local function's values sit in buffers of the same types: reading or writing one through its typed
    reference changes nothing. -/
theorem ofBuf_toBuf {T : BufTy} (x : StableHlo.TRef sig T) (v : T.Contents (Elt Ideal)) : x.ofBuf (x.toBuf v) = v := by
  obtain ⟨r, h, _, _⟩ := x
  subst h
  rfl
theorem ofBuf_cst_3 (p1 p2 p3) (v : (⟨S_, .f32⟩ : BufTy).Contents (Elt Ideal)) :
    (StableHlo.TRef.of (sig := sig) (T := ⟨S_, .f32⟩) main_cst_3 p1 p2 p3).ofBuf v = v := rfl
theorem ofBuf_v13 (p1 p2 p3) (v : (⟨S100000, .i1⟩ : BufTy).Contents (Elt Ideal)) :
    (StableHlo.TRef.of (sig := sig) (T := ⟨S100000, .i1⟩) main_v13 p1 p2 p3).ofBuf v = v := rfl
theorem ofBuf_v16 (p1 p2 p3) (v : (⟨S100000, .f32⟩ : BufTy).Contents (Elt Ideal)) :
    (StableHlo.TRef.of (sig := sig) (T := ⟨S100000, .f32⟩) main_v16 p1 p2 p3).ofBuf v = v := rfl
theorem toBuf_v17 (p1 p2 p3) (v : (⟨S100000, .f32⟩ : BufTy).Contents (Elt Ideal)) :
    (StableHlo.TRef.of (sig := sig) (T := ⟨S100000, .f32⟩) main_v17 p1 p2 p3).toBuf v = v := rfl

theorem w2_v17 (c : Dev nD) : W2 m ρ c (Proc.devRef .tc main_v17) = val_main_v17 (F := Ideal) (m ((c : Thread nD τ).loc main_arg1)) (m ((c : Thread nD τ).loc main_arg2)) := by
  show StableHlo.after hostOps0_1 (W1 m ρ c) (Proc.devRef .tc main_v17) = _
  have h13 : W1 m ρ c (Proc.devRef .tc main_v13) = val_main_v13 (F := Ideal) (m ((c : Thread nD τ).loc main_arg1)) (m ((c : Thread nD τ).loc main_arg2)) := w1_v13 m ρ c
  have h16 : W1 m ρ c (Proc.devRef .tc main_v16) = val_main_v16 (F := Ideal) (m ((c : Thread nD τ).loc main_arg1)) (m ((c : Thread nD τ).loc main_arg2)) := w1_v16 m ρ c
  have hz : W1 m ρ c (Proc.devRef .tc main_cst_3) = val_main_cst_3 (F := Ideal) := w1_cst_3 m ρ c
  generalize W1 m ρ c = V at h13 h16 hz ⊢
  simp only [hostOps0_1]
  after_results_simp
  repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rw [h13, h16, hz]
  rw [toBuf_v17, ofBuf_v13, ofBuf_v16, ofBuf_toBuf, ofBuf_toBuf, ofBuf_cst_3]
  rfl

theorem w2_v5 (c : Dev nD) : W2 m ρ c (Proc.devRef .tc main_v5) = val_main_v5 (F := Ideal) (m ((c : Thread nD τ).loc main_arg1)) := by
  show StableHlo.after hostOps0_1 (W1 m ρ c) (Proc.devRef .tc main_v5) = _
  have h5 : W1 m ρ c (Proc.devRef .tc main_v5) = val_main_v5 (F := Ideal) (m ((c : Thread nD τ).loc main_arg1)) := w1_v5 m ρ c
  generalize W1 m ρ c = V at h5 ⊢
  simp only [hostOps0_1]
  after_results_simp
  repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rw [h5]

theorem w2_v6 (c : Dev nD) : W2 m ρ c (Proc.devRef .tc main_v6) = val_main_v6 (F := Ideal) (m ((c : Thread nD τ).loc main_arg1)) := by
  show StableHlo.after hostOps0_1 (W1 m ρ c) (Proc.devRef .tc main_v6) = _
  have h6 : W1 m ρ c (Proc.devRef .tc main_v6) = val_main_v6 (F := Ideal) (m ((c : Thread nD τ).loc main_arg1)) := w1_v6 m ρ c
  generalize W1 m ρ c = V at h6 ⊢
  simp only [hostOps0_1]
  after_results_simp
  repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rw [h6]

theorem w2_v8 (c : Dev nD) : W2 m ρ c (Proc.devRef .tc main_v8) = val_main_v8 (F := Ideal) (m ((c : Thread nD τ).loc main_arg2)) := by
  show StableHlo.after hostOps0_1 (W1 m ρ c) (Proc.devRef .tc main_v8) = _
  have h8 : W1 m ρ c (Proc.devRef .tc main_v8) = val_main_v8 (F := Ideal) (m ((c : Thread nD τ).loc main_arg2)) := w1_v8 m ρ c
  generalize W1 m ρ c = V at h8 ⊢
  simp only [hostOps0_1]
  after_results_simp
  repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rw [h8]

/-! ## At region 0's entry

The normalisation coefficient of every edge (the product of the two end points' inverse square roots and the edge's
weight); the edge lists are not written. -/

theorem w3_v33 (c : Dev nD) : W3 m ρ c (Proc.devRef .tc main_v33) = val_main_v33 (F := Ideal) (m ((c : Thread nD τ).loc main_arg1)) (m ((c : Thread nD τ).loc main_arg2)) := by
  show StableHlo.after hostOps0_2 (W2 m ρ c) (Proc.devRef .tc main_v33) = _
  have h5 : W2 m ρ c (Proc.devRef .tc main_v5) = val_main_v5 (F := Ideal) (m ((c : Thread nD τ).loc main_arg1)) := w2_v5 m ρ c
  have h6 : W2 m ρ c (Proc.devRef .tc main_v6) = val_main_v6 (F := Ideal) (m ((c : Thread nD τ).loc main_arg1)) := w2_v6 m ρ c
  have h8 : W2 m ρ c (Proc.devRef .tc main_v8) = val_main_v8 (F := Ideal) (m ((c : Thread nD τ).loc main_arg2)) := w2_v8 m ρ c
  have h17 : W2 m ρ c (Proc.devRef .tc main_v17) = val_main_v17 (F := Ideal) (m ((c : Thread nD τ).loc main_arg1)) (m ((c : Thread nD τ).loc main_arg2)) := w2_v17 m ρ c
  generalize W2 m ρ c = V at h5 h6 h8 h17 ⊢
  simp only [hostOps0_2]
  after_results_simp
  repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rw [h5, h6, h8, h17]
  rfl

theorem w3_v5 (c : Dev nD) : W3 m ρ c (Proc.devRef .tc main_v5) = val_main_v5 (F := Ideal) (m ((c : Thread nD τ).loc main_arg1)) := by
  show StableHlo.after hostOps0_2 (W2 m ρ c) (Proc.devRef .tc main_v5) = _
  have h5 : W2 m ρ c (Proc.devRef .tc main_v5) = val_main_v5 (F := Ideal) (m ((c : Thread nD τ).loc main_arg1)) := w2_v5 m ρ c
  generalize W2 m ρ c = V at h5 ⊢
  simp only [hostOps0_2]
  after_results_simp
  repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rw [h5]

theorem w3_v6 (c : Dev nD) : W3 m ρ c (Proc.devRef .tc main_v6) = val_main_v6 (F := Ideal) (m ((c : Thread nD τ).loc main_arg1)) := by
  show StableHlo.after hostOps0_2 (W2 m ρ c) (Proc.devRef .tc main_v6) = _
  have h6 : W2 m ρ c (Proc.devRef .tc main_v6) = val_main_v6 (F := Ideal) (m ((c : Thread nD τ).loc main_arg1)) := w2_v6 m ρ c
  generalize W2 m ρ c = V at h6 ⊢
  simp only [hostOps0_2]
  after_results_simp
  repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rw [h6]

/-! ## The arguments at region 0's entry

No host operation before region 0 writes the features, the weights or the bias rows: each holds what it held at
launch. -/

theorem w3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg0) := rfl

theorem w3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps0_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg3) := rfl

theorem w3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps0_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg4) := rfl

theorem w3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
          simp only [hostOps0_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg5) := rfl

theorem w3_arg6 (c : Dev nD) : W3 m ρ c (Proc.devRef .tc main_arg6) = m ((c : Thread nD τ).loc main_arg6) :=
  calc W3 m ρ c (Proc.devRef .tc main_arg6)
    _ = W2 m ρ c (Proc.devRef .tc main_arg6) := StableHlo.after_of_forall_not_mem (b := Proc.devRef .tc main_arg6) _ _ (List.forall_iff_forall_mem.mp (by
          simp only [hostOps0_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg6) := rfl

/-! ## At region 0's exit -/

/-- The whole-array product, entry by entry, is the reference's product: the same sum over the 128 shared
    coordinates, read at the same entries. -/
theorem product_eq (x0 : (⟨S100000x128, .f32⟩ : BufTy).Contents (Elt Ideal)) (x3 : (⟨S128x128, .f32⟩ : BufTy).Contents (Elt Ideal)) :
    Gcn.mm1 x0 x3 = val_main_v34 (F := Ideal) x0 x3 := by
  funext i
  rw [val_main_v34_apply]
  rfl

/-- Region 0 leaves its result array at the product of the features and the first weights as launched. -/
theorem w4_v34 (c : Dev nD) :
    W4 m ρ c (Proc.devRef .tc main_v34) = val_main_v34 (F := Ideal) (m ((c : Thread nD τ).loc main_arg0)) (m ((c : Thread nD τ).loc main_arg3)) := by
  refine (show W4 m ρ c (Proc.devRef .tc main_v34) = (dat0 (V3 m ρ) c).arrAt 2 cfg0.N from W4_arr m ρ c 2).trans ?_
  rw [Region0.array (V3 m ρ) c]
  show Gcn.mm1 (W3 m ρ c (Proc.devRef .tc main_arg0)) (W3 m ρ c (Proc.devRef .tc main_arg3)) = _
  rw [w3_arg0, w3_arg3, product_eq]

/-- What the buffers hold when region 0 has written the first product: the edge lists with the self loops appended,
    the normalisation coefficients, the product `x · W1`, and the later layers' arguments untouched. -/
theorem exit0 (c : Dev nD) :
    W4 m ρ c (Proc.devRef .tc main_v5) = val_main_v5 (F := Ideal) (m ((c : Thread nD τ).loc main_arg1))
    ∧ W4 m ρ c (Proc.devRef .tc main_v6) = val_main_v6 (F := Ideal) (m ((c : Thread nD τ).loc main_arg1))
    ∧ W4 m ρ c (Proc.devRef .tc main_v33) = val_main_v33 (F := Ideal) (m ((c : Thread nD τ).loc main_arg1)) (m ((c : Thread nD τ).loc main_arg2))
    ∧ W4 m ρ c (Proc.devRef .tc main_v34) = val_main_v34 (F := Ideal) (m ((c : Thread nD τ).loc main_arg0)) (m ((c : Thread nD τ).loc main_arg3))
    ∧ W4 m ρ c (Proc.devRef .tc main_arg4) = m ((c : Thread nD τ).loc main_arg4)
    ∧ W4 m ρ c (Proc.devRef .tc main_arg5) = m ((c : Thread nD τ).loc main_arg5)
    ∧ W4 m ρ c (Proc.devRef .tc main_arg6) = m ((c : Thread nD τ).loc main_arg6) :=
  ⟨(W4_of_ne m ρ c main_v5 (by decide)).trans (w3_v5 m ρ c),
   (W4_of_ne m ρ c main_v6 (by decide)).trans (w3_v6 m ρ c),
   (W4_of_ne m ρ c main_v33 (by decide)).trans (w3_v33 m ρ c),
   w4_v34 m ρ c,
   (W4_of_ne m ρ c main_arg4 (by decide)).trans (w3_arg4 m ρ c),
   (W4_of_ne m ρ c main_arg5 (by decide)).trans (w3_arg5 m ρ c),
   (W4_of_ne m ρ c main_arg6 (by decide)).trans (w3_arg6 m ρ c)⟩

end Cert.KernelIdeal.Head

end
-- ==== Proof.Region1.lean ====
/-
  The first layer's closing step, over the whole array.  The 100000 rows are cut into twenty blocks of 5000 rows; at
  each block the bias row (one row of 128 entries, the same at every block) is added to every row of the block and the
  sum is clamped below at zero.  Entry (p, q) of a block's result depends on entry (p, q) of the block and entry (0, q)
  of the bias row only; row r of the array lies in block r / 5000, so the twenty results together are the whole-array
  function, entry by entry.
-/
import proofs.«119702_j14388140442154_1_alg».proof.Proof.Gen.KernelIdeal.Frame
import proofs.«119702_j14388140442154_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat Cfg Window)
open Idealize.ShloMosaic.ValueIdx

/-- The store's rectangle starts at the origin of the block. -/
theorem origin : (![0, 0] : Fin 2 → Nat) = fun _ => 0 := funext fun a => by fin_cases a <;> rfl

/-- The body's result at entry (p, q) of a block: the block's entry plus the bias row's entry q, clamped below at zero. -/
theorem pay_apply (b : Vec Ideal S1x128 .f32) (x : Vec Ideal S5000x128 .f32) (p : Fin 5000) (q : Fin 128) :
    k1_pay1 b x (ix2 p q) = FloatOps.maximumf (F := Ideal) (φ := .f32) (FloatOps.addf (F := Ideal) (φ := .f32) (x (ix2 p q)) (b (ix2 (0 : Fin 1) q))) (FloatOps.ofBits (F := Ideal) .f32 0x00000000#32) := by
  unfold k1_pay1
  rw [shapeCast_self, shapeCast_self, shapeCast_self]
  show max (x (ix2 p q) + broadcastTo S5000x128 b broadcasts_S1x128_S5000x128 (ix2 p q)) _ = _
  rw [broadcastTo_1b_ab_apply]
  rfl

/-- Where each window's block sits at grid point t: the two 5000-row windows at row block t, the bias row at the origin. -/
theorem block_index : ∀ t : Fin cfg1.N, win1_2.index t (0 : Fin 2) = t.val ∧ win1_2.index t (1 : Fin 2) = 0
    ∧ win1_0.index t (0 : Fin 2) = t.val ∧ win1_0.index t (1 : Fin 2) = 0
    ∧ win1_1.index t (0 : Fin 2) = 0 ∧ win1_1.index t (1 : Fin 2) = 0 :=
  (by decide +kernel : ∀ t : Fin grid1.N, _)

/-- What grid point t writes back is row block t of the bias-and-clamp of the two arrays as the region found them. -/
theorem flushed_eq (V : (c : Dev nD) → (b : Ref sig .tc) → Buf (Elt Ideal) ((c : Thread nD τ).loc b)) (c : Dev nD) (t : Fin cfg1.N) :
    (dat1 (F := Ideal) V c).flushed 2 t = ((cfg1.win 2).blk t).view.read (Elt Ideal) (Gcn.biasRelu (V c main_v47) (V c main_v48)) := by
  show (cfg1.win 2).cut (grid1.coords t) ((dat1 (F := Ideal) V c).after 2 t) = _
  rw [after1_2]
  unfold out1_2
  rw [View.canon_unit_zero origin]
  simp only [View.ld_unit_zero (S := S5000x128) origin, View.ld_unit_zero (S := S1x128) origin]
  obtain ⟨e0, e1, e2, e3, e4, e5⟩ := block_index t
  funext j
  obtain ⟨p, q, rfl⟩ : ∃ (p : Fin 5000) (q : Fin 128), j = ix2 p q := ⟨j 0, j 1, eq_ix2 j⟩
  refine (pay_apply _ _ p q).trans ?_
  show FloatOps.maximumf (F := Ideal) (φ := .f32) (FloatOps.addf (F := Ideal) (φ := .f32) (V c main_v47 (((cfg1.win 0).blk t).view.emb (ix2 p q))) (V c main_v48 (((cfg1.win 1).blk t).view.emb (ix2 (0 : Fin 1) q)))) _
    = FloatOps.maximumf (F := Ideal) (φ := .f32) (FloatOps.addf (F := Ideal) (φ := .f32) (V c main_v47 (((cfg1.win 2).blk t).view.emb (ix2 p q))) (V c main_v48 (Gcn.brow1 (((cfg1.win 2).blk t).view.emb (ix2 p q))))) _
  have h0 : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  have h1 : ((cfg1.win 1).blk t).view.emb (ix2 (0 : Fin 1) q) = Gcn.brow1 (((cfg1.win 2).blk t).view.emb (ix2 p q)) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  rw [h0, h1]

/-- An index of the array lies in the block of grid point t iff each coordinate lies in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v49).slice (win1_2.rect t)).set ↔ _
  rw [View.set_slice_whole, Rect.mem_set_unit]
  exact Iff.rfl

/-- Row r lies in the row block of grid point r / 5000: the twenty blocks cover the whole array. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨e0, e1, -, -, -, -⟩ := block_index t
  have et : t.val = (i 0).val / 5000 := rfl
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the twenty row blocks the output array is the bias-and-clamp of the two input arrays, entry by entry. -/
theorem array (V : (c : Dev nD) → (b : Ref sig .tc) → Buf (Elt Ideal) ((c : Thread nD τ).loc b)) (c : Dev nD) :
    (dat1 (F := Ideal) V c).arrAt 2 cfg1.N = Gcn.biasRelu (V c main_v47) (V c main_v48) :=
  (dat1 (F := Ideal) V c).arrAt_eq_of_cover 2 (Gcn.biasRelu (V c main_v47) (V c main_v48)) (fun t _ => flushed_eq V c t) cover

end Cert.KernelIdeal.Region1

end
-- ==== Proof.Region2.lean ====
import proofs.«119702_j14388140442154_1_alg».proof.Proof.Gen.KernelIdeal.Frame
import proofs.«119702_j14388140442154_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat Cfg Window)

/-- The origin of a block, as the constant-zero offset. -/
theorem origin_zero : (![0, 0] : Fin 2 → Nat) = fun _ => 0 := funext fun a => by fin_cases a <;> rfl

/-! ## The product's dimension numbers, axis by axis

The left operand is read at (row of the result, shared coordinate), the right operand at (shared coordinate,
column of the result). -/

theorem lhs_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_shared (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_shared (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- One block of the product: entry (p, q) of the body's result is the sum over the 128 shared coordinates k of
    (row p of the feature block at k) * (the weights at (k, q)); the narrowing of both operands is the identity
    over the extended reals, the recast of the feature block to its own shape changes nothing, and the accumulator
    starts at zero. -/
theorem block_product (x0 : Vec Ideal S5000x128 .f32) (x1 : Vec Ideal S128x64 .f32) (p : Fin 5000) (q : Fin 64) :
    k2_pay1 (F := Ideal) x0 x1 (ValueIdx.ix2 p q) = ∑ k : Fin 128, x0 (ValueIdx.ix2 p k) * x1 (ValueIdx.ix2 k q) := by
  unfold k2_pay1
  rw [shapeCast_self]
  show FloatOps.matmul dot_S5000x128_S128x64_S5000x64_1_0_0_1_n_n none (truncf .bf16 x0 bitsLt_bf16_f32) (truncf .bf16 x1 bitsLt_bf16_f32)
      (constant (F := Ideal) S5000x64 .f32 0x00000000#32) (ValueIdx.ix2 p q) = _
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ValueIdx.ix2 p q) ((ValueIdx.contrEquiv1 dot_S5000x128_S128x64_S5000x64_1_0_0_1_n_n 128 rfl rfl).symm k) = ValueIdx.ix2 p k := funext fun a => Fin.ext (by
    match a with
    | ⟨0, _⟩ => exact lhs_row _ _
    | ⟨1, _⟩ => exact (lhs_shared _ _).trans hk)
  have er : dot_S5000x128_S128x64_S5000x64_1_0_0_1_n_n.rhsIdx (ValueIdx.ix2 p q) ((ValueIdx.contrEquiv1 dot_S5000x128_S128x64_S5000x64_1_0_0_1_n_n 128 rfl rfl).symm k) = ValueIdx.ix2 k q := funext fun a => Fin.ext (by
    match a with
    | ⟨0, _⟩ => exact (rhs_shared _ _).trans hk
    | ⟨1, _⟩ => exact rhs_col _ _)
  rw [el, er]
  rfl

/-! ## From the twenty row blocks to the array -/

/-- The windows' index maps over the grid: point t's feature block and result block are row block t, in the only
    column block; the weights' window is the whole matrix at every point. -/
theorem index_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- Point t's body result, from a feature block x0 and a weight block x1 that are the windows' blocks of arrays A
    and W, is row block t of the whole product of A and W: row p of the block is row 5000 * t + p of the array. -/
theorem block_eq (A : (⟨S100000x128, .f32⟩ : BufTy).Contents (Elt Ideal)) (W : (⟨S128x64, .f32⟩ : BufTy).Contents (Elt Ideal))
    (t : Fin cfg2.N) (x0 : Vec Ideal S5000x128 .f32) (x1 : Vec Ideal S128x64 .f32)
    (h0 : ∀ (p : Fin 5000) (k : Fin 128), x0 (ValueIdx.ix2 p k) = A (((cfg2.win 0).blk t).view.emb (ValueIdx.ix2 p k)))
    (h1 : ∀ (k : Fin 128) (q : Fin 64), x1 (ValueIdx.ix2 k q) = W (((cfg2.win 1).blk t).view.emb (ValueIdx.ix2 k q))) :
    k2_pay1 (F := Ideal) x0 x1 = ((cfg2.win 2).blk t).view.read (Elt Ideal) (Gcn.mm2 A W) := by
  obtain ⟨e0, e1, e2, e3, e4, e5⟩ := index_facts t
  funext j
  obtain ⟨p, q, rfl⟩ : ∃ (p : Fin 5000) (q : Fin 64), j = ValueIdx.ix2 p q := ⟨j 0, j 1, ValueIdx.eq_ix2 j⟩
  refine (block_product x0 x1 p q).trans ?_
  show _ = ∑ k : Fin 128, A (Gcn.lhs2 (((cfg2.win 2).blk t).view.emb (ValueIdx.ix2 p q)) k) * W (Gcn.rhs2 (((cfg2.win 2).blk t).view.emb (ValueIdx.ix2 p q)) k)
  refine Finset.sum_congr rfl fun k _ => ?_
  rw [h0, h1]
  have hl : ((cfg2.win 0).blk t).view.emb (ValueIdx.ix2 p k) = Gcn.lhs2 (((cfg2.win 2).blk t).view.emb (ValueIdx.ix2 p q)) k := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  have hr : ((cfg2.win 1).blk t).view.emb (ValueIdx.ix2 k q) = Gcn.rhs2 (((cfg2.win 2).blk t).view.emb (ValueIdx.ix2 p q)) k := by
    funext a; apply Fin.ext
    match a with
    | ⟨0, _⟩ => show win2_1.index t (0 : Fin 2) * 128 + 1 * k.val = k.val; omega
    | ⟨1, _⟩ => show win2_1.index t (1 : Fin 2) * 64 + 1 * q.val = win2_2.index t (1 : Fin 2) * 64 + 1 * q.val; omega
  rw [hl, hr]

/-- What point t writes back is row block t of the whole-array product of the arrays as the region finds them. -/
theorem flushed_eq (V : (c : Dev nD) → (b : Ref sig .tc) → Buf (Elt Ideal) ((c : Thread nD τ).loc b)) (c : Dev nD) (t : Fin cfg2.N) :
    (dat2 (F := Ideal) V c).flushed 2 t = ((cfg2.win 2).blk t).view.read (Elt Ideal) (Gcn.mm2 (V c main_v49) (V c main_arg5)) := by
  show (cfg2.win 2).cut (grid2.coords t) ((dat2 (F := Ideal) V c).after 2 t) = _
  rw [after2_2]
  unfold out2_2
  rw [View.canon_unit_zero origin_zero]
  simp only [View.ld_unit_zero (S := S5000x128) origin_zero, View.ld_unit_zero (S := S128x64) origin_zero]
  exact block_eq (V c main_v49) (V c main_arg5) t (iblk2 V c 0 t) (iblk2 V c 1 t) (fun _ _ => rfl) (fun _ _ => rfl)

/-- An index of the array lies in point t's block iff each coordinate lies in the block's range on its axis. -/
theorem mem_block (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v50).slice (win2_2.rect t)).set ↔ _
  rw [View.set_slice_whole, Rect.mem_set_unit]
  exact Iff.rfl

/-- The twenty row blocks cover all 100000 rows: row r lies in the block of point r / 5000. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  have ht : t.val = (i 0).val / 5000 := rfl
  obtain ⟨e0, e1, e2, e3, e4, e5⟩ := index_facts t
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- After the twenty points the result array is the whole product of the two input arrays as the region found them. -/
theorem array (V : (c : Dev nD) → (b : Ref sig .tc) → Buf (Elt Ideal) ((c : Thread nD τ).loc b)) (c : Dev nD) :
    (dat2 (F := Ideal) V c).arrAt 2 cfg2.N = Gcn.mm2 (V c main_v49) (V c main_arg5) :=
  (dat2 (F := Ideal) V c).arrAt_eq_of_cover 2 (Gcn.mm2 (V c main_v49) (V c main_arg5)) (fun t _ => flushed_eq V c t) cover

end Cert.KernelIdeal.Region2

end
-- ==== Proof.Region3.lean ====
/-
  The second layer's closing step, over the whole array.  The 100000 rows are cut into twenty blocks of 5000 rows; at
  each block the bias row (one row of 64 entries, the same at every block) is added to every row of the block.  Entry
  (p, q) of a block's result depends on entry (p, q) of the block and entry (0, q) of the bias row only; row r of the
  array lies in block r / 5000, so the twenty results together are the whole-array function, entry by entry.
-/
import proofs.«119702_j14388140442154_1_alg».proof.Proof.Gen.KernelIdeal.Frame
import proofs.«119702_j14388140442154_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen Idealize.ShloMosaic Idealize.ShloMosaic.TcCoe Idealize.SL.Sem
open Idealize.ShloMosaic.Pipeline (Dat Cfg Window)
open Idealize.ShloMosaic.ValueIdx

/-- The store's rectangle starts at the origin of the block. -/
theorem origin : (![0, 0] : Fin 2 → Nat) = fun _ => 0 := funext fun a => by fin_cases a <;> rfl

/-- The body's result at entry (p, q) of a block: the block's entry plus the bias row's entry q. -/
theorem pay_apply (b : Vec Ideal S1x64 .f32) (x : Vec Ideal S5000x64 .f32) (p : Fin 5000) (q : Fin 64) :
    k3_pay1 b x (ix2 p q) = FloatOps.addf (F := Ideal) (φ := .f32) (x (ix2 p q)) (b (ix2 (0 : Fin 1) q)) := by
  unfold k3_pay1
  rw [shapeCast_self, shapeCast_self, shapeCast_self]
  show x (ix2 p q) + broadcastTo S5000x64 b broadcasts_S1x64_S5000x64 (ix2 p q) = _
  rw [broadcastTo_1b_ab_apply]
  rfl

/-- Where each window's block sits at grid point t: the two 5000-row windows at row block t, the bias row at the origin. -/
theorem block_index : ∀ t : Fin cfg3.N, win3_2.index t (0 : Fin 2) = t.val ∧ win3_2.index t (1 : Fin 2) = 0
    ∧ win3_0.index t (0 : Fin 2) = t.val ∧ win3_0.index t (1 : Fin 2) = 0
    ∧ win3_1.index t (0 : Fin 2) = 0 ∧ win3_1.index t (1 : Fin 2) = 0 :=
  (by decide +kernel : ∀ t : Fin grid3.N, _)

/-- What grid point t writes back is row block t of the bias sum of the two arrays as the region found them. -/
theorem flushed_eq (V : (c : Dev nD) → (b : Ref sig .tc) → Buf (Elt Ideal) ((c : Thread nD τ).loc b)) (c : Dev nD) (t : Fin cfg3.N) :
    (dat3 (F := Ideal) V c).flushed 2 t = ((cfg3.win 2).blk t).view.read (Elt Ideal) (Gcn.biasAdd (V c main_v63) (V c main_v64)) := by
  show (cfg3.win 2).cut (grid3.coords t) ((dat3 (F := Ideal) V c).after 2 t) = _
  rw [after3_2]
  unfold out3_2
  rw [View.canon_unit_zero origin]
  simp only [View.ld_unit_zero (S := S5000x64) origin, View.ld_unit_zero (S := S1x64) origin]
  obtain ⟨e0, e1, e2, e3, e4, e5⟩ := block_index t
  funext j
  obtain ⟨p, q, rfl⟩ : ∃ (p : Fin 5000) (q : Fin 64), j = ix2 p q := ⟨j 0, j 1, eq_ix2 j⟩
  refine (pay_apply _ _ p q).trans ?_
  show FloatOps.addf (F := Ideal) (φ := .f32) (V c main_v63 (((cfg3.win 0).blk t).view.emb (ix2 p q))) (V c main_v64 (((cfg3.win 1).blk t).view.emb (ix2 (0 : Fin 1) q)))
    = FloatOps.addf (F := Ideal) (φ := .f32) (V c main_v63 (((cfg3.win 2).blk t).view.emb (ix2 p q))) (V c main_v64 (Gcn.brow2 (((cfg3.win 2).blk t).view.emb (ix2 p q))))
  have h0 : ((cfg3.win 0).blk t).view.emb (ix2 p q) = ((cfg3.win 2).blk t).view.emb (ix2 p q) := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 64 + 1 * q.val = win3_2.index t (1 : Fin 2) * 64 + 1 * q.val; omega
  have h1 : ((cfg3.win 1).blk t).view.emb (ix2 (0 : Fin 1) q) = Gcn.brow2 (((cfg3.win 2).blk t).view.emb (ix2 p q)) := by
    funext a; apply Fin.ext
    match a with
    | ⟨0, _⟩ => show win3_1.index t (0 : Fin 2) * 1 + 1 * 0 = 0; omega
    | ⟨1, _⟩ => show win3_1.index t (1 : Fin 2) * 64 + 1 * q.val = win3_2.index t (1 : Fin 2) * 64 + 1 * q.val; omega
  rw [h0, h1]

/-- An index of the array lies in the block of grid point t iff each coordinate lies in the block's range on its axis. -/
theorem mem_blk (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v65).slice (win3_2.rect t)).set ↔ _
  rw [View.set_slice_whole, Rect.mem_set_unit]
  exact Iff.rfl

/-- Row r lies in the row block of grid point r / 5000: the twenty blocks cover the whole array. -/
theorem cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  let t : Fin cfg3.N := ⟨(i 0).val / 5000, by rw [hN]; omega⟩
  obtain ⟨e0, e1, -, -, -, -⟩ := block_index t
  have et : t.val = (i 0).val / 5000 := rfl
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- After the twenty row blocks the output array is the bias sum of the two input arrays, entry by entry. -/
theorem array (V : (c : Dev nD) → (b : Ref sig .tc) → Buf (Elt Ideal) ((c : Thread nD τ).loc b)) (c : Dev nD) :
    (dat3 (F := Ideal) V c).arrAt 2 cfg3.N = Gcn.biasAdd (V c main_v63) (V c main_v64) :=
  (dat3 (F := Ideal) V c).arrAt_eq_of_cover 2 (Gcn.biasAdd (V c main_v63) (V c main_v64)) (fun t _ => flushed_eq V c t) cover

end Cert.KernelIdeal.Region3

end
-- ==== Proof.Tail.lean ====
/-
  From the first product to the result.  After the first product the program gathers the product's rows along the
  edge sources, scales them by the normalisation coefficients and sums them at the edge targets (the first
  neighbourhood sums); adds the first bias row and clamps below at zero; multiplies by the second weights; forms the
  second neighbourhood sums the same way; and adds the second bias row.  Each stage is read off the buffers as a
  function of the stage before, and set against the reference's stage of the same name: the sums are the same
  operations on the same operands, a bias row is the bias with a unit axis in front (the reference broadcasts it
  instead, to the same entries), the two clamps and the two products agree entry by entry.  The reference builds the
  edge lists and the coefficients a second time for the second layer: the second copies are the first.
-/
import proofs.«119702_j14388140442154_1_alg».proof.Proof.Gen.KernelIdeal.Frame
import proofs.«119702_j14388140442154_1_alg».proof.Proof.Gen.ReferenceIdeal.Read
import proofs.«119702_j14388140442154_1_alg».proof.Proof.Spec
import proofs.«119702_j14388140442154_1_alg».proof.Proof.Region1
import proofs.«119702_j14388140442154_1_alg».proof.Proof.Region2
import proofs.«119702_j14388140442154_1_alg».proof.Proof.Region3
import Idealize.ShloMosaic.Lib.StableHlo.Run
import Idealize.ShloMosaic.Lib.ValueLayout

set_option maxRecDepth 16384

noncomputable section

namespace Cert.KernelIdeal.Tail

open Cert.KernelIdeal Cert.KernelIdeal.Gen Idealize.ShloMosaic Idealize.ShloMosaic.TcCoe Idealize.SL.Sem
open Cert.ReferenceIdeal.Read
open Idealize.ShloMosaic.ValueIdx

/-! ## The second layer's copies of the edge lists and of the normalisation coefficients -/

/-- The edge sources with the self loops appended, built a second time, are the first. -/
theorem src_again (x1 : (⟨S2x1600000, .i32⟩ : BufTy).Contents (Elt Ideal)) : val_main_v53 (F := Ideal) x1 = val_main_v5 (F := Ideal) x1 := rfl
/-- The edge targets likewise. -/
theorem dst_again (x1 : (⟨S2x1600000, .i32⟩ : BufTy).Contents (Elt Ideal)) : val_main_v54 (F := Ideal) x1 = val_main_v6 (F := Ideal) x1 := rfl
/-- The normalisation coefficients likewise. -/
theorem norm_again (x1 : (⟨S2x1600000, .i32⟩ : BufTy).Contents (Elt Ideal)) (x2 : (⟨S1600000, .f32⟩ : BufTy).Contents (Elt Ideal)) : val_main_v81 (F := Ideal) x1 x2 = val_main_v33 (F := Ideal) x1 x2 := rfl

/-! ## The host operations between the first product and the first bias step -/

/-- The first neighbourhood sums, from the edge lists, the normalisation coefficients and the first product. -/
theorem sums1 (V : Valuation τ sig (Elt Ideal)) (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal))
    (hsrc : V (Proc.devRef .tc main_v5) = val_main_v5 (F := Ideal) x1)
    (hdst : V (Proc.devRef .tc main_v6) = val_main_v6 (F := Ideal) x1)
    (hnorm : V (Proc.devRef .tc main_v33) = val_main_v33 (F := Ideal) x1 x2)
    (hprod : V (Proc.devRef .tc main_v34) = val_main_v34 (F := Ideal) x0 x3) :
    StableHlo.after (hostOps1 (F := Ideal)) V (Proc.devRef .tc main_v47) = val_main_v47 (F := Ideal) x0 x1 x2 x3 := by
  simp only [hostOps1]
  after_results_simp
  repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rw [hsrc, hdst, hnorm, hprod]
  rfl

/-- The first bias as one row of 128 entries. -/
theorem row1 (V : Valuation τ sig (Elt Ideal)) (x4 : (⟨S128, .f32⟩ : BufTy).Contents (Elt Ideal)) (hb : V (Proc.devRef .tc main_arg4) = x4) :
    StableHlo.after (hostOps1 (F := Ideal)) V (Proc.devRef .tc main_v48) = shapeCast S1x128 x4 shapeCasts_S128_S1x128 := by
  simp only [hostOps1]
  after_results_simp
  repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rw [hb]
  rfl

/-- These operations leave the edge sources, -/
theorem keep1_src (V : Valuation τ sig (Elt Ideal)) :
    StableHlo.after (hostOps1 (F := Ideal)) V (Proc.devRef .tc main_v5) = V (Proc.devRef .tc main_v5) := by
  simp only [hostOps1]
  after_results_simp
  repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))

/-- the edge targets, -/
theorem keep1_dst (V : Valuation τ sig (Elt Ideal)) :
    StableHlo.after (hostOps1 (F := Ideal)) V (Proc.devRef .tc main_v6) = V (Proc.devRef .tc main_v6) := by
  simp only [hostOps1]
  after_results_simp
  repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))

/-- the normalisation coefficients, -/
theorem keep1_norm (V : Valuation τ sig (Elt Ideal)) :
    StableHlo.after (hostOps1 (F := Ideal)) V (Proc.devRef .tc main_v33) = V (Proc.devRef .tc main_v33) := by
  simp only [hostOps1]
  after_results_simp
  repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))

/-- the second weights -/
theorem keep1_w2 (V : Valuation τ sig (Elt Ideal)) :
    StableHlo.after (hostOps1 (F := Ideal)) V (Proc.devRef .tc main_arg5) = V (Proc.devRef .tc main_arg5) := by
  simp only [hostOps1]
  after_results_simp
  repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))

/-- and the second bias as they were. -/
theorem keep1_b2 (V : Valuation τ sig (Elt Ideal)) :
    StableHlo.after (hostOps1 (F := Ideal)) V (Proc.devRef .tc main_arg6) = V (Proc.devRef .tc main_arg6) := by
  simp only [hostOps1]
  after_results_simp
  repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))

/-! ## The first bias step against the reference's add, broadcast and maximum -/

/-- Column q of the bias row is entry q of the bias. -/
theorem row1_apply (x4 : (⟨S128, .f32⟩ : BufTy).Contents (Elt Ideal)) (i : Gcn.Sx.Idx) :
    shapeCast S1x128 x4 shapeCasts_S128_S1x128 (Gcn.brow1 i) = x4 (idx_main_v48 (idx_main_v49 i)) := by
  have e1 : Gcn.brow1 i = ix2 (0 : Fin 1) (⟨(i 1).val, (i 1).isLt⟩ : Fin 128) := by
    funext a; match a with | ⟨0, _⟩ => rfl | ⟨1, _⟩ => rfl
  have e2 : idx_main_v48 (idx_main_v49 i) = ix1 (⟨(i 1).val, (i 1).isLt⟩ : Fin 128) := by
    funext a; match a with | ⟨0, _⟩ => rfl
  rw [e1, e2]
  exact shapeCast_a_1a_apply x4 shapeCasts_S128_S1x128 (0 : Fin 1) _

/-- Bias added and clamped, entry by entry, is the reference's first layer output. -/
theorem relu_bridge (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) :
    Gcn.biasRelu (val_main_v47 (F := Ideal) x0 x1 x2 x3) (shapeCast S1x128 x4 shapeCasts_S128_S1x128)
      = val_main_v51 (F := Ideal) x0 x1 x2 x3 x4 := by
  funext i
  rw [val_main_v51_apply, val_main_v50_apply, val_main_v49_apply, val_main_v48_apply, val_main_call1_v0_apply, val_main_call1_cst_apply]
  unfold Gcn.biasRelu
  rw [row1_apply]

/-! ## The second product against the reference's -/

/-- The second product, entry by entry, is the reference's. -/
theorem mm2_bridge (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) :
    Gcn.mm2 (val_main_v51 (F := Ideal) x0 x1 x2 x3 x4) x5 = val_main_v82 (F := Ideal) x0 x1 x2 x3 x4 x5 := by
  funext i
  rw [val_main_v82_apply]
  rfl

/-! ## The host operations between the second product and the second bias step -/

/-- The second neighbourhood sums, from the edge lists, the normalisation coefficients and the second product. -/
theorem sums2 (V : Valuation τ sig (Elt Ideal)) (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal))
    (hsrc : V (Proc.devRef .tc main_v5) = val_main_v53 (F := Ideal) x1)
    (hdst : V (Proc.devRef .tc main_v6) = val_main_v54 (F := Ideal) x1)
    (hnorm : V (Proc.devRef .tc main_v33) = val_main_v81 (F := Ideal) x1 x2)
    (hprod : V (Proc.devRef .tc main_v50) = val_main_v82 (F := Ideal) x0 x1 x2 x3 x4 x5) :
    StableHlo.after (hostOps3 (F := Ideal)) V (Proc.devRef .tc main_v63) = val_main_v95 (F := Ideal) x0 x1 x2 x3 x4 x5 := by
  simp only [hostOps3]
  after_results_simp
  repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rw [hsrc, hdst, hnorm, hprod]
  rfl

/-- The second bias as one row of 64 entries. -/
theorem row2 (V : Valuation τ sig (Elt Ideal)) (x6 : (⟨S64, .f32⟩ : BufTy).Contents (Elt Ideal)) (hb : V (Proc.devRef .tc main_arg6) = x6) :
    StableHlo.after (hostOps3 (F := Ideal)) V (Proc.devRef .tc main_v64) = shapeCast S1x64 x6 shapeCasts_S64_S1x64 := by
  simp only [hostOps3]
  after_results_simp
  repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rw [hb]
  rfl

/-! ## The second bias step against the reference's add and broadcast -/

/-- Column q of the bias row is entry q of the bias. -/
theorem row2_apply (x6 : (⟨S64, .f32⟩ : BufTy).Contents (Elt Ideal)) (i : Gcn.So.Idx) :
    shapeCast S1x64 x6 shapeCasts_S64_S1x64 (Gcn.brow2 i) = x6 (idx_main_v96 (idx_main_v97 i)) := by
  have e1 : Gcn.brow2 i = ix2 (0 : Fin 1) (⟨(i 1).val, (i 1).isLt⟩ : Fin 64) := by
    funext a; match a with | ⟨0, _⟩ => rfl | ⟨1, _⟩ => rfl
  have e2 : idx_main_v96 (idx_main_v97 i) = ix1 (⟨(i 1).val, (i 1).isLt⟩ : Fin 64) := by
    funext a; match a with | ⟨0, _⟩ => rfl
  rw [e1, e2]
  exact shapeCast_a_1a_apply x6 shapeCasts_S64_S1x64 (0 : Fin 1) _

/-- Bias added, entry by entry, is the reference's result. -/
theorem add_bridge (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) :
    Gcn.biasAdd (val_main_v95 (F := Ideal) x0 x1 x2 x3 x4 x5) (shapeCast S1x64 x6 shapeCasts_S64_S1x64)
      = val_main_v98 (F := Ideal) x0 x1 x2 x3 x4 x5 x6 := by
  funext i
  rw [val_main_v98_apply, val_main_v97_apply, val_main_v96_apply]
  unfold Gcn.biasAdd
  rw [row2_apply]

/-! ## From region 0's exit to the result -/

variable (m : (ℓ : Loc nD τ sig) → Buf (Elt Ideal) ℓ) (ρ : Dev nD → PrngReg)

/-- At the first bias step's exit its output is the reference's first layer output. -/
theorem exit1 (c : Dev nD) (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal))
    (hsrc : W4 m ρ c (Proc.devRef .tc main_v5) = val_main_v5 (F := Ideal) x1)
    (hdst : W4 m ρ c (Proc.devRef .tc main_v6) = val_main_v6 (F := Ideal) x1)
    (hnorm : W4 m ρ c (Proc.devRef .tc main_v33) = val_main_v33 (F := Ideal) x1 x2)
    (hprod : W4 m ρ c (Proc.devRef .tc main_v34) = val_main_v34 (F := Ideal) x0 x3)
    (hb1 : W4 m ρ c (Proc.devRef .tc main_arg4) = x4) :
    W6 m ρ c (Proc.devRef .tc main_v49) = val_main_v51 (F := Ideal) x0 x1 x2 x3 x4 := by
  refine (W6_arr m ρ c 2).trans ?_
  rw [Region1.array (V5 m ρ) c]
  show Gcn.biasRelu (StableHlo.after (hostOps1 (F := Ideal)) (W4 m ρ c) (Proc.devRef .tc main_v47))
      (StableHlo.after (hostOps1 (F := Ideal)) (W4 m ρ c) (Proc.devRef .tc main_v48)) = _
  rw [sums1 (W4 m ρ c) x0 x1 x2 x3 hsrc hdst hnorm hprod, row1 (W4 m ρ c) x4 hb1]
  exact relu_bridge x0 x1 x2 x3 x4

/-- The first bias step and the operations before it leave the edge sources, -/
theorem keep6_src (c : Dev nD) : W6 m ρ c (Proc.devRef .tc main_v5) = W4 m ρ c (Proc.devRef .tc main_v5) :=
  (W6_of_ne m ρ c main_v5 (by decide)).trans (keep1_src (W4 m ρ c))
/-- the edge targets, -/
theorem keep6_dst (c : Dev nD) : W6 m ρ c (Proc.devRef .tc main_v6) = W4 m ρ c (Proc.devRef .tc main_v6) :=
  (W6_of_ne m ρ c main_v6 (by decide)).trans (keep1_dst (W4 m ρ c))
/-- the normalisation coefficients, -/
theorem keep6_norm (c : Dev nD) : W6 m ρ c (Proc.devRef .tc main_v33) = W4 m ρ c (Proc.devRef .tc main_v33) :=
  (W6_of_ne m ρ c main_v33 (by decide)).trans (keep1_norm (W4 m ρ c))
/-- the second weights -/
theorem keep6_w2 (c : Dev nD) : W6 m ρ c (Proc.devRef .tc main_arg5) = W4 m ρ c (Proc.devRef .tc main_arg5) :=
  (W6_of_ne m ρ c main_arg5 (by decide)).trans (keep1_w2 (W4 m ρ c))
/-- and the second bias as they were. -/
theorem keep6_b2 (c : Dev nD) : W6 m ρ c (Proc.devRef .tc main_arg6) = W4 m ρ c (Proc.devRef .tc main_arg6) :=
  (W6_of_ne m ρ c main_arg6 (by decide)).trans (keep1_b2 (W4 m ρ c))

/-- At the second product's exit its output is the reference's second product. -/
theorem exit2 (c : Dev nD) (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal))
    (hact : W6 m ρ c (Proc.devRef .tc main_v49) = val_main_v51 (F := Ideal) x0 x1 x2 x3 x4)
    (hw2 : W6 m ρ c (Proc.devRef .tc main_arg5) = x5) :
    W7 m ρ c (Proc.devRef .tc main_v50) = val_main_v82 (F := Ideal) x0 x1 x2 x3 x4 x5 := by
  refine (W7_arr m ρ c 2).trans ?_
  rw [Region2.array (V6 m ρ) c]
  show Gcn.mm2 (W6 m ρ c (Proc.devRef .tc main_v49)) (W6 m ρ c (Proc.devRef .tc main_arg5)) = _
  rw [hact, hw2]
  exact mm2_bridge x0 x1 x2 x3 x4 x5

/-- From region 0's exit to the result: given what the buffers hold when region 0 has written the first product,
    the result buffer ends at the reference's last stage. -/
theorem result_of_exit0 (c : Dev nD)
    (x0 : (⟨S100000x128, .f32⟩ : BufTy).Contents (Elt Ideal)) (x1 : (⟨S2x1600000, .i32⟩ : BufTy).Contents (Elt Ideal))
    (x2 : (⟨S1600000, .f32⟩ : BufTy).Contents (Elt Ideal)) (x3 : (⟨S128x128, .f32⟩ : BufTy).Contents (Elt Ideal))
    (x4 : (⟨S128, .f32⟩ : BufTy).Contents (Elt Ideal)) (x5 : (⟨S128x64, .f32⟩ : BufTy).Contents (Elt Ideal))
    (x6 : (⟨S64, .f32⟩ : BufTy).Contents (Elt Ideal))
    (hsrc : W4 m ρ c (Proc.devRef .tc main_v5) = val_main_v5 (F := Ideal) x1)
    (hdst : W4 m ρ c (Proc.devRef .tc main_v6) = val_main_v6 (F := Ideal) x1)
    (hnorm : W4 m ρ c (Proc.devRef .tc main_v33) = val_main_v33 (F := Ideal) x1 x2)
    (hprod : W4 m ρ c (Proc.devRef .tc main_v34) = val_main_v34 (F := Ideal) x0 x3)
    (hb1 : W4 m ρ c (Proc.devRef .tc main_arg4) = x4)
    (hw2 : W4 m ρ c (Proc.devRef .tc main_arg5) = x5)
    (hb2 : W4 m ρ c (Proc.devRef .tc main_arg6) = x6) :
    W9 m ρ c (Proc.devRef .tc main_v65) = val_main_v98 (F := Ideal) x0 x1 x2 x3 x4 x5 x6 := by
  have h49 := exit1 m ρ c x0 x1 x2 x3 x4 hsrc hdst hnorm hprod hb1
  have h50 := exit2 m ρ c x0 x1 x2 x3 x4 x5 h49 ((keep6_w2 m ρ c).trans hw2)
  have s5 : W7 m ρ c (Proc.devRef .tc main_v5) = val_main_v53 (F := Ideal) x1 :=
    (W7_of_ne m ρ c main_v5 (by decide)).trans (((keep6_src m ρ c).trans hsrc).trans (src_again x1).symm)
  have s6 : W7 m ρ c (Proc.devRef .tc main_v6) = val_main_v54 (F := Ideal) x1 :=
    (W7_of_ne m ρ c main_v6 (by decide)).trans (((keep6_dst m ρ c).trans hdst).trans (dst_again x1).symm)
  have s33 : W7 m ρ c (Proc.devRef .tc main_v33) = val_main_v81 (F := Ideal) x1 x2 :=
    (W7_of_ne m ρ c main_v33 (by decide)).trans (((keep6_norm m ρ c).trans hnorm).trans (norm_again x1 x2).symm)
  have s64 : W7 m ρ c (Proc.devRef .tc main_arg6) = x6 :=
    (W7_of_ne m ρ c main_arg6 (by decide)).trans ((keep6_b2 m ρ c).trans hb2)
  refine (W9_arr m ρ c 2).trans ?_
  rw [Region3.array (V8 m ρ) c]
  show Gcn.biasAdd (StableHlo.after (hostOps3 (F := Ideal)) (W7 m ρ c) (Proc.devRef .tc main_v63))
      (StableHlo.after (hostOps3 (F := Ideal)) (W7 m ρ c) (Proc.devRef .tc main_v64)) = _
  rw [sums2 (W7 m ρ c) x0 x1 x2 x3 x4 x5 s5 s6 s33 h50, row2 (W7 m ρ c) x6 s64]
  exact add_bridge x0 x1 x2 x3 x4 x5 x6

end Cert.KernelIdeal.Tail

end
-- ==== Proof.lean ====
/-
  A two-layer graph convolution against its plain reference, over the extended reals.

  Both programs first append a self loop to every node (edge sources and targets followed by 0 … 99999, weights
  followed by ones), sum the weights into each target's degree, take `dis = 1 / sqrt (max deg 1e-12)` where the degree is
  positive and 0 elsewhere, and form the coefficient `dis[src] * w * dis[dst]` of every edge. A layer then multiplies the
  node features by a weight matrix, scales the product's row `src` by the edge's coefficient, sums these rows into row
  `dst`, and adds a bias row; between the layers the result is clamped below at zero.

  The kernel computes the two matrix products and the two bias steps in row blocks of 5000 (twenty blocks cover the
  100000 rows) and leaves the gathers and the neighbourhood sums to the same host operations the reference uses. So
  the two programs differ in four places only, and in each the block-wise stage is the whole-array stage:
  an entry of `x · W` depends on one row of `x` and one column of `W`, and the bias step is entry by entry.
  The change of float format in front of the kernel's products is the identity on the extended reals. The reference
  computes the coefficients once per layer, the kernel once; they are the same function of the same arguments.
  No step uses finiteness of the inputs.
-/
import proofs.«119702_j14388140442154_1_alg».proof.Defs
import proofs.«119702_j14388140442154_1_alg».proof.Proof.Gen.Kernel
import proofs.«119702_j14388140442154_1_alg».proof.Proof.Gen.Kernel.Frame
import proofs.«119702_j14388140442154_1_alg».proof.Proof.Gen.KernelIdeal
import proofs.«119702_j14388140442154_1_alg».proof.Proof.Gen.KernelIdeal.Frame
import proofs.«119702_j14388140442154_1_alg».proof.Proof.Gen.ReferenceIdeal
import proofs.«119702_j14388140442154_1_alg».proof.Proof.Gen.ReferenceIdeal.Run
import proofs.«119702_j14388140442154_1_alg».proof.Proof.Gen.ReferenceIdeal.Read
import proofs.«119702_j14388140442154_1_alg».proof.Proof.Gen.Pre_finite_inputs
import proofs.«119702_j14388140442154_1_alg».proof.Proof.ResultRun
import proofs.«119702_j14388140442154_1_alg».proof.Proof.Head
import proofs.«119702_j14388140442154_1_alg».proof.Proof.Tail
import Idealize.ShloMosaic.Adequacy
import Idealize.ShloMosaic.Init

noncomputable section

namespace Cert.Proof.Claims

open Idealize.ShloMosaic Idealize.ShloMosaic.TcCoe Idealize.SL.Sem
open Cert.ReferenceIdeal.Read (val_main_v98 val_main_v98_eq)

/-- The word-level program terminates without a fault and leaves its seven argument arrays as launched. -/
theorem frame_kernel : @Cert.frame_Kernel Cert.Kernel.Gen.facts Cert.Pre_finite_inputs.Gen.facts :=
  fun m ρ _ => Cert.Kernel.Gen.frame m ρ

/-- So does the program read over the extended reals. -/
theorem frame_kernelIdeal : @Cert.frame_KernelIdeal Cert.KernelIdeal.Gen.facts Cert.Pre_finite_inputs.Gen.facts :=
  fun m ρ _ => Cert.KernelIdeal.Gen.frame m ρ

/-- The reference is host operations only: its run, with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both programs end with the same array: the reference's last stage `v95 + b2` of the common arguments. On the
    kernel's side the result buffer is read off the last segment boundary (the fold through the host stretches and
    the four regions), which the two halves of the chain identify with that stage; on the reference's side it is the
    run's own term. Neither side needs the inputs to be finite: every step is the same operation on both sides, or a
    block decomposition of a product or of a row-wise sum, which holds on the extended reals as it stands. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => val_main_v98 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · refine (θ_run Cert.KernelIdeal.defs _ _).mono (fun r h c => ⟨(h c).1.trans ?_, (h c).2⟩)
      (Cert.KernelIdeal.ResultRun.run_result (F := Ideal) m ρ)
    obtain ⟨hsrc, hdst, hnorm, hprod, hb1, hw2, hb2⟩ := Cert.KernelIdeal.Head.exit0 m ρ c
    exact Cert.KernelIdeal.Tail.result_of_exit0 m ρ c _ _ _ _ _ _ _ hsrc hdst hnorm hprod hb1 hw2 hb2
  · refine (θ_run Cert.ReferenceIdeal.defs _ _).mono (fun r h c => ⟨(h c).1.trans ?_, (h c).2⟩)
      (Cert.ReferenceIdeal.Value.run (F := Ideal) m' ρ')
    rw [val_main_v98_eq, (hagree c).1, (hagree c).2.1, (hagree c).2.2.1, (hagree c).2.2.2.1, (hagree c).2.2.2.2.1,
      (hagree c).2.2.2.2.2.1, (hagree c).2.2.2.2.2.2]

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_reference, trivial, Claims.algebraic⟩

end Cert.Proof

end
